-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x130 : Shape := ⟨2, ![100000, 130]⟩
abbrev S2x1600000 : Shape := ⟨2, ![2, 1600000]⟩
abbrev S128x130 : Shape := ⟨2, ![128, 130]⟩
abbrev S128 : Shape := ⟨1, ![128]⟩
abbrev S128x128 : Shape := ⟨2, ![128, 128]⟩
abbrev S_ : Shape := ⟨0, ![]⟩

class Facts : Prop where
  bcast_S_S100000x130 : S_.BroadcastsInDim S100000x130 (![] : Fin 0 → Fin S100000x130.rank)
  reducesTo_S100000x130_S_d0_1 : S100000x130.ReducesTo [0, 1] S_
  h_S_ : 0 < S_.numel
  bcast_S_S128x130 : S_.BroadcastsInDim S128x130 (![] : Fin 0 → Fin S128x130.rank)
  reducesTo_S128x130_S_d0_1 : S128x130.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  main_v43

def fn_part1 {F : FTy → Type} [FloatOps F] (main_arg5 : FVec F S128 .f32) (main_arg6 : FVec F S128 .f32) (main_arg7 : FVec F S128x128 .f32) (main_arg8 : FVec F S128 .f32) (main_arg9 : FVec F S128x128 .f32) (main_v13 : IVec S_ 1) (main_v16 : IVec S128x130 1) : IVec S_ 1 :=
  let main_c_5 : IVec S_ 1 := constantI S_ 1 1#1
  let main_v17 : IVec S_ 1 := (fun x v => Host.reduce IntOp.andi x v reducesTo_S128x130_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x130 .f32) (main_arg1 : IVec S2x1600000 32) (main_arg2 : FVec F S128x130 .f32) (main_arg3 : FVec F S128 .f32) (main_arg4 : FVec F S128x130 .f32) (main_arg5 : FVec F S128 .f32) (main_arg6 : FVec F S128 .f32) (main_arg7 : FVec F S128x128 .f32) (main_arg8 : FVec F S128 .f32) (main_arg9 : FVec F S128x128 .f32) : IVec S_ 1 :=
  let main_v0 : FVec F S100000x130 .f32 := Host.absf main_arg0
  let main_cst : FVec F S_ .f32 := constant S_ .f32 0x7F800000#32
  let main_v1 : FVec F S100000x130 .f32 := broadcastInDim S100000x130 ![] bcast_S_S100000x130 main_cst
  let main_v2 : IVec S100000x130 1 := cmpf .olt main_v0 main_v1
  let main_c : IVec S_ 1 := constantI S_ 1 1#1
  let main_v3 : IVec S_ 1 := (fun x v => Host.reduce IntOp.andi x v reducesTo_S100000x130_S_d0_1 h_S_) main_v2 main_c
  let main_v4 : FVec F S128x130 .f32 := Host.absf main_arg2
  let main_cst_0 : FVec F S_ .f32 := constant S_ .f32 0x7F800000#32
  let main_v5 : FVec F S128x130 .f32 := broadcastInDim S128x130 ![] bcast_S_S128x130 main_cst_0
  let main_v6 : IVec S128x130 1 := cmpf .olt main_v4 main_v5
  let main_c_1 : IVec S_ 1 := constantI S_ 1 1#1
  let main_v7 : IVec S_ 1 := (fun x v => Host.reduce IntOp.andi x v reducesTo_S128x130_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x130 .f32 := Host.absf main_arg4
  let main_cst_4 : FVec F S_ .f32 := constant S_ .f32 0x7F800000#32
  let main_v15 : FVec F S128x130 .f32 := broadcastInDim S128x130 ![] bcast_S_S128x130 main_cst_4
  let main_v16 : IVec S128x130 1 := cmpf .olt main_v14 main_v15
  fn_part1 (F := F) main_arg5 main_arg6 main_arg7 main_arg8 main_arg9 main_v13 main_v16
-- ==== Kernel.lean ====
abbrev S100000x130 : Shape := ⟨2, ![100000, 130]⟩
abbrev S2x1600000 : Shape := ⟨2, ![2, 1600000]⟩
abbrev S128x130 : Shape := ⟨2, ![128, 130]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x130 : Shape := ⟨2, ![1600000, 130]⟩
abbrev S100000 : Shape := ⟨1, ![100000]⟩
abbrev S100000x1 : Shape := ⟨2, ![100000, 1]⟩
abbrev S1x128 : Shape := ⟨2, ![1, 128]⟩
abbrev S100000x128 : Shape := ⟨2, ![100000, 128]⟩
abbrev S5000x130 : Shape := ⟨2, ![5000, 130]⟩
abbrev S5000x128 : Shape := ⟨2, ![5000, 128]⟩
abbrev S130x128 : Shape := ⟨2, ![130, 128]⟩
abbrev S5000 : Shape := ⟨1, ![5000]⟩
abbrev S5000x1 : Shape := ⟨2, ![5000, 1]⟩
abbrev S1600000x128 : Shape := ⟨2, ![1600000, 128]⟩

abbrev nBuf : Space → Nat
  | .hbm => 70
  | .vmem => 20
  | .smem => 0
  | _ => 0

abbrev bufTy : (tb : Table) → Fin (tcTables nBuf tb) → BufTy
  | .hbm, ⟨0, _⟩ => ⟨S100000x130, .f32⟩
  | .hbm, ⟨1, _⟩ => ⟨S2x1600000, .i32⟩
  | .hbm, ⟨2, _⟩ => ⟨S128x130, .f32⟩
  | .hbm, ⟨3, _⟩ => ⟨S128, .f32⟩
  | .hbm, ⟨4, _⟩ => ⟨S128x130, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x130, .f32⟩
  | .hbm, ⟨23, _⟩ => ⟨S_, .f32⟩
  | .hbm, ⟨24, _⟩ => ⟨S100000x130, .f32⟩
  | .hbm, ⟨25, _⟩ => ⟨S1600000x1, .i32⟩
  | .hbm, ⟨26, _⟩ => ⟨S100000x130, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x130, .f32⟩
  | .hbm, ⟨38, _⟩ => ⟨S100000x130, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .local _ .vmem, ⟨0, _⟩ => ⟨S5000x130, .f32⟩
  | .local _ .vmem, ⟨1, _⟩ => ⟨S5000x130, .f32⟩
  | .local _ .vmem, ⟨2, _⟩ => ⟨S5000x130, .f32⟩
  | .local _ .vmem, ⟨3, _⟩ => ⟨S5000x130, .f32⟩
  | .local _ .vmem, ⟨4, _⟩ => ⟨S128x130, .f32⟩
  | .local _ .vmem, ⟨5, _⟩ => ⟨S1x128, .f32⟩
  | .local _ .vmem, ⟨6, _⟩ => ⟨S128x130, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | _, _ => ⟨S100000x130, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x130 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x130 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x130 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x130 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x130 : S_.BroadcastsInDim S100000x130 (![] : Fin 0 → Fin S100000x130.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x130_0_1 : S100000x1.BroadcastsInDim S100000x130 (![0, 1] : Fin 2 → Fin S100000x130.rank)
  shapeCasts_S128_S1x128 : S128.ShapeCasts S1x128
  inb_S5000x130_S5000x130_0_0 : ∀ a, (![0, 0] : Fin 2 → Nat) a + S5000x130.size a ≤ S5000x130.size a
  h_S5000x130 : 0 < S5000x130.numel
  shapeCasts_S5000x130_S5000x130 : S5000x130.ShapeCasts S5000x130
  inb_S128x130_S128x130_0_0 : ∀ a, (![0, 0] : Fin 2 → Nat) a + S128x130.size a ≤ S128x130.size a
  h_S128x130 : 0 < S128x130.numel
  transposes_S128x130_p1_0_S130x128 : S128x130.Transposes [1, 0] S130x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  gather_S100000x130_S1600000x1_S1600000x130_1_0_n_n_0_1_1130_wf : GatherDims.WF S100000x130 S1600000x1 S1600000x130 [1] [0] [] [0] [] 1 ![1, 130]
  scatter_S100000x130_S1600000x1_S1600000x130_1_0_0_1_wf : ScatterDims.WF S100000x130 S1600000x1 S1600000x130 [1] [0] [0] 1
  scatter_S100000_S1600000x1_S1600000_n_0_0_1_wf : ScatterDims.WF S100000 S1600000x1 S1600000 [] [0] [0] 1
  dot_S5000x130_S130x128_S5000x128_1_0_0_1_n_n_wf : DotDims.WF S5000x130 S130x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x130.size a ≤ S100000x130.size a
  hwx0_0 : ∀ i : grid0.Coords, EltTy.bits .f32 = 32 ∨ (Rect.block (s := S100000x130) S5000x130.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x130.size a ≤ S100000x130.size a
  hwx0_1 : ∀ i : grid0.Coords, EltTy.bits .f32 = 32 ∨ (Rect.block (s := S100000x130) S5000x130.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x130.size a ≤ S128x130.size a
  hwx0_2 : ∀ i : grid0.Coords, EltTy.bits .f32 = 32 ∨ (Rect.block (s := S128x130) S128x130.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x130.size a ≤ S128x130.size a
  hwx0_4 : ∀ i : grid0.Coords, EltTy.bits .f32 = 32 ∨ (Rect.block (s := S128x130) S128x130.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x130_S1600000x1_S1600000x130_1_0_n_n_0_1_1130 : GatherDims S100000x130 S1600000x1 S1600000x130 where
  offsetDims := [1]
  collapsedSliceDims := [0]
  operandBatchingDims := []
  startIndicesBatchingDims := []
  startIndexMap := [0]
  indexVectorDim := 1
  sliceSizes := ![1, 130]
  wf := gather_S100000x130_S1600000x1_S1600000x130_1_0_n_n_0_1_1130_wf
def scatter_S100000x130_S1600000x1_S1600000x130_1_0_0_1 : ScatterDims S100000x130 S1600000x1 S1600000x130 where
  updateWindowDims := [1]
  insertedWindowDims := [0]
  scatterDimsToOperandDims := [0]
  indexVectorDim := 1
  wf := scatter_S100000x130_S1600000x1_S1600000x130_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x130_S130x128_S5000x128_1_0_0_1_n_n : DotDims S5000x130 S130x128 S5000x128 where
  lhsContracting := [1]
  rhsContracting := [0]
  lhsNonContracting := [0]
  rhsNonContracting := [1]
  lhsBatch := []
  rhsBatch := []
  wf := dot_S5000x130_S130x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x130.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x130.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x130.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x130.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x130 : Shape := ⟨2, ![100000, 130]⟩
abbrev S2x1600000 : Shape := ⟨2, ![2, 1600000]⟩
abbrev S128x130 : Shape := ⟨2, ![128, 130]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x130 : Shape := ⟨2, ![1600000, 130]⟩
abbrev S100000 : Shape := ⟨1, ![100000]⟩
abbrev S100000x1 : Shape := ⟨2, ![100000, 1]⟩
abbrev S130x128 : Shape := ⟨2, ![130, 128]⟩
abbrev S100000x128 : Shape := ⟨2, ![100000, 128]⟩
abbrev S1x128 : Shape := ⟨2, ![1, 128]⟩
abbrev S1600000x128 : Shape := ⟨2, ![1600000, 128]⟩

abbrev nBuf : Space → Nat
  | .hbm => 112
  | .vmem => 0
  | .smem => 0
  | _ => 0

abbrev bufTy : (tb : Table) → Fin (tcTables nBuf tb) → BufTy
  | .hbm, ⟨0, _⟩ => ⟨S100000x130, .f32⟩
  | .hbm, ⟨1, _⟩ => ⟨S2x1600000, .i32⟩
  | .hbm, ⟨2, _⟩ => ⟨S128x130, .f32⟩
  | .hbm, ⟨3, _⟩ => ⟨S128, .f32⟩
  | .hbm, ⟨4, _⟩ => ⟨S128x130, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x130, .f32⟩
  | .hbm, ⟨23, _⟩ => ⟨S_, .f32⟩
  | .hbm, ⟨24, _⟩ => ⟨S100000x130, .f32⟩
  | .hbm, ⟨25, _⟩ => ⟨S1600000x1, .i32⟩
  | .hbm, ⟨26, _⟩ => ⟨S100000x130, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x130, .f32⟩
  | .hbm, ⟨38, _⟩ => ⟨S100000x130, .f32⟩
  | .hbm, ⟨39, _⟩ => ⟨S130x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S130x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000, .f32⟩
  | .hbm, ⟨49, _⟩ => ⟨S100000x1, .f32⟩
  | .hbm, ⟨50, _⟩ => ⟨S_, .f32⟩
  | .hbm, ⟨51, _⟩ => ⟨S100000x1, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000, .f32⟩
  | .hbm, ⟨58, _⟩ => ⟨S100000x1, .f32⟩
  | .hbm, ⟨59, _⟩ => ⟨S_, .f32⟩
  | .hbm, ⟨60, _⟩ => ⟨S100000x1, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x1, .f32⟩
  | .hbm, ⟨66, _⟩ => ⟨S100000x1, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x128, .f32⟩
  | .hbm, ⟨88, _⟩ => ⟨S_, .f32⟩
  | .hbm, ⟨89, _⟩ => ⟨S100000x128, .f32⟩
  | .hbm, ⟨90, _⟩ => ⟨S1600000x1, .i32⟩
  | .hbm, ⟨91, _⟩ => ⟨S100000x128, .f32⟩
  | .hbm, ⟨92, _⟩ => ⟨S_, .f32⟩
  | .hbm, ⟨93, _⟩ => ⟨S1600000, .f32⟩
  | .hbm, ⟨94, _⟩ => ⟨S_, .f32⟩
  | .hbm, ⟨95, _⟩ => ⟨S100000, .f32⟩
  | .hbm, ⟨96, _⟩ => ⟨S1600000x1, .i32⟩
  | .hbm, ⟨97, _⟩ => ⟨S100000, .f32⟩
  | .hbm, ⟨98, _⟩ => ⟨S_, .f32⟩
  | .hbm, ⟨99, _⟩ => ⟨S100000, .f32⟩
  | .hbm, ⟨100, _⟩ => ⟨S100000, .f32⟩
  | .hbm, ⟨101, _⟩ => ⟨S100000x1, .f32⟩
  | .hbm, ⟨102, _⟩ => ⟨S100000x128, .f32⟩
  | .hbm, ⟨103, _⟩ => ⟨S100000x128, .f32⟩
  | .hbm, ⟨104, _⟩ => ⟨S128x128, .f32⟩
  | .hbm, ⟨105, _⟩ => ⟨S100000x128, .f32⟩
  | .hbm, ⟨106, _⟩ => ⟨S1x128, .f32⟩
  | .hbm, ⟨107, _⟩ => ⟨S100000x128, .f32⟩
  | .hbm, ⟨108, _⟩ => ⟨S100000x128, .f32⟩
  | .hbm, ⟨109, _⟩ => ⟨S128x128, .f32⟩
  | .hbm, ⟨110, _⟩ => ⟨S100000x128, .f32⟩
  | .hbm, ⟨111, _⟩ => ⟨S100000x128, .f32⟩
  | _, _ => ⟨S100000x130, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_call0_cst : Ref sig .tc := ⟨.hbm, 76, rfl⟩
abbrev main_call0_v0 : Ref sig .tc := ⟨.hbm, 77, rfl⟩
abbrev main_v55 : Ref sig .tc := ⟨.hbm, 78, rfl⟩
abbrev main_c_9 : Ref sig .tc := ⟨.hbm, 79, rfl⟩
abbrev main_v56 : Ref sig .tc := ⟨.hbm, 80, rfl⟩
abbrev main_v57 : Ref sig .tc := ⟨.hbm, 81, rfl⟩
abbrev main_c_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_12 : Ref sig .tc := ⟨.hbm, 92, rfl⟩
abbrev main_v66 : Ref sig .tc := ⟨.hbm, 93, rfl⟩
abbrev main_cst_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x130 : S_.BroadcastsInDim S100000x130 (![] : Fin 0 → Fin S100000x130.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x130_0_1 : S100000x1.BroadcastsInDim S100000x130 (![0, 1] : Fin 2 → Fin S100000x130.rank)
  transposes_S128x130_S130x128_1_0 : S128x130.Transposes [1, 0] S130x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  gather_S100000x130_S1600000x1_S1600000x130_1_0_n_n_0_1_1130_wf : GatherDims.WF S100000x130 S1600000x1 S1600000x130 [1] [0] [] [0] [] 1 ![1, 130]
  scatter_S100000x130_S1600000x1_S1600000x130_1_0_0_1_wf : ScatterDims.WF S100000x130 S1600000x1 S1600000x130 [1] [0] [0] 1
  scatter_S100000_S1600000x1_S1600000_n_0_0_1_wf : ScatterDims.WF S100000 S1600000x1 S1600000 [] [0] [0] 1
  dot_S100000x130_S130x128_S100000x128_1_0_0_1_n_n_wf : DotDims.WF S100000x130 S130x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x130_S1600000x1_S1600000x130_1_0_n_n_0_1_1130 : GatherDims S100000x130 S1600000x1 S1600000x130 where
  offsetDims := [1]
  collapsedSliceDims := [0]
  operandBatchingDims := []
  startIndicesBatchingDims := []
  startIndexMap := [0]
  indexVectorDim := 1
  sliceSizes := ![1, 130]
  wf := gather_S100000x130_S1600000x1_S1600000x130_1_0_n_n_0_1_1130_wf
def scatter_S100000x130_S1600000x1_S1600000x130_1_0_0_1 : ScatterDims S100000x130 S1600000x1 S1600000x130 where
  updateWindowDims := [1]
  insertedWindowDims := [0]
  scatterDimsToOperandDims := [0]
  indexVectorDim := 1
  wf := scatter_S100000x130_S1600000x1_S1600000x130_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x130_S130x128_S100000x128_1_0_0_1_n_n : DotDims S100000x130 S130x128 S100000x128 where
  lhsContracting := [1]
  rhsContracting := [0]
  lhsNonContracting := [0]
  rhsNonContracting := [1]
  lhsBatch := []
  rhsBatch := []
  wf := dot_S100000x130_S130x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RowSpec.lean ====
/-
  One GraphSAGE layer at ONE node, as a function of that node's own rows.

  Both programs aggregate the neighbours' features into a per-node mean on the host, in the same way; what differs is
  only where the dense part runs. At a node the dense part reads one row `mr` of the aggregated means and one row
  `xr` of the node features and nothing of any other node, so it is stated here over rows: a block of 5000 nodes and
  the whole array of 100000 nodes are then the same statement.

  * `sageLin`: entry `q` of `mr · W_lᵀ + b + xr · W_rᵀ`, grouped as both programs group it,
    `((Σ_k mr k · W_l (q, k)) + b q) + Σ_k xr k · W_r (q, k)`.
  * `laneMean y`: the sum of the 128 entries of a row divided by the literal 128 — the division is the extended
    reals' total one, the same on both sides.
  * `normRelu y g β`: layer normalisation over the 128 entries, `(y − mean) · rsqrt(var + ε) · g + β` with
    `var = mean((y − mean)²)` and `ε` the one literal both programs carry, then the maximum with zero.
  Everything is an expression over the extended reals; no law of arithmetic is used here.
-/
import Idealize.ShloMosaic.PureOps.Ideal
import Idealize.ShloMosaic.Lib.ValueIdx

noncomputable section

namespace Cert.Sage

open Idealize.ShloMosaic Idealize.ShloMosaic.ValueIdx

/-- Entry `q` of one node's linear output: the mean row against row `q` of `W_l`, plus the bias, plus the feature
    row against row `q` of `W_r`. -/
def sageLin {K : ℕ} (mr xr : Fin K → EReal) (Wl Wr : (⟨2, ![128, K]⟩ : Shape).Idx → EReal) (b : Fin 128 → EReal)
    (q : Fin 128) : EReal :=
  (∑ k : Fin K, mr k * Wl (ix2 q k) + b q) + ∑ k : Fin K, xr k * Wr (ix2 q k)

/-- The mean of a row of 128 entries: their sum over the literal `128.0`. -/
def laneMean (y : Fin 128 → EReal) : EReal :=
  Ideal.div (∑ j : Fin 128, y j) (Ideal.ofBits .f32 0x43000000#32)

/-- A row with its mean taken off. -/
def centred (y : Fin 128 → EReal) (j : Fin 128) : EReal := y j - laneMean y

/-- Layer normalisation of a row with scale `g` and shift `β`, then the maximum with zero. -/
def normRelu (y g β : Fin 128 → EReal) (q : Fin 128) : EReal :=
  max (centred y q * Ideal.rsqrt (laneMean (fun j => centred y j * centred y j) + Ideal.ofBits .f32 0x3727C5AC#32)
        * g q + β q)
    (Ideal.ofBits .f32 0x00000000#32)

/-- The first layer at a node: the linear output, normalised, rectified. -/
def layer1Row (mr xr : Fin 130 → EReal) (Wl Wr : (⟨2, ![128, 130]⟩ : Shape).Idx → EReal) (b g β : Fin 128 → EReal) :
    Fin 128 → EReal :=
  normRelu (sageLin mr xr Wl Wr b) g β

/-- The second layer at a node: the linear output alone. -/
def layer2Row (mr hr : Fin 128 → EReal) (Wl Wr : (⟨2, ![128, 128]⟩ : Shape).Idx → EReal) (b : Fin 128 → EReal) :
    Fin 128 → EReal :=
  sageLin mr hr Wl Wr b

end Cert.Sage

end
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.KerBody.lean ====
/-
  What the two kernel bodies compute, entry by entry.

  A body works on a block of 5000 nodes. Its one store writes, at row `p` and column `q` of the block, a value that
  depends only on row `p` of the two row-blocked operands (the aggregated means and the node features) and on the
  small operands, which every block sees whole: that value is the row function of `RowSpec`.

  The steps, for the first body: the two products with the transposed weights are sums over the 130 input
  features (the product into the zero accumulator is the plain sum); the bias is one row broadcast down the block; the
  two lane reductions are sums over the 128 columns of the row; the keep-dims column `[5000] → [5000, 1] → [5000, 128]`
  reads the row's own entry back. The second body is the linear part alone, over 128 input features.
-/
import proofs.«155796_j54949811585355_1_alg».proof.Proof.Gen.KernelIdeal.Skeleton
import proofs.«155796_j54949811585355_1_alg».proof.Proof.RowSpec
import proofs.«155796_j54949811585355_1_alg».proof.Proof.LibPlainDot
import Idealize.ShloMosaic.Lib.ValueLayout
import Idealize.ShloMosaic.Lib.Pipeline.Value
import Idealize.ShloMosaic.PureOps.Ideal.Laws

noncomputable section

namespace Cert.Sage.Ker

open Idealize.ShloMosaic Idealize.ShloMosaic.ValueIdx Cert.KernelIdeal Cert.KernelIdeal.Gen Cert.Sage

/-! ## Two keep-dims layout reads -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-- The lane reduction's inserted index: row `p` with column `k`. -/
theorem lift_row (p : Fin 5000) (k : Fin 128) :
    (reduces_S5000x128_S5000 : S5000x128.Reduces [1] S5000).lift (ix1 p) k = ix2 p k :=
  funext fun a => Fin.ext (by match a with | ⟨0, _⟩ => rfl | ⟨1, _⟩ => rfl)

/-! ## The first body -/

/-- The linear part of the first body as one vector expression: the two products with the transposed weights and the
    bias row broadcast down the block, grouped as the body groups them. -/
def linBlk1 (v0 v2 : FVec Ideal S5000x130 .f32) (v3 v10 : FVec Ideal S128x130 .f32) (v6 : FVec Ideal S1x128 .f32) :
    FVec Ideal S5000x128 .f32 :=
  addf (addf (matmul dot_S5000x130_S130x128_S5000x128_1_0_0_1_n_n none
          (shapeCast S5000x130 v0 shapeCasts_S5000x130_S5000x130)
          (transpose S130x128 [1, 0] v3 transposes_S128x130_p1_0_S130x128) (constant S5000x128 .f32 0x00000000#32))
        (broadcastTo S5000x128 (shapeCast S1x128 v6 shapeCasts_S1x128_S1x128) broadcasts_S1x128_S5000x128))
      (matmul dot_S5000x130_S130x128_S5000x128_1_0_0_1_n_n none v2
        (transpose S130x128 [1, 0] v10 transposes_S128x130_p1_0_S130x128) (constant S5000x128 .f32 0x00000000#32))

/-- At `(p, q)` it is the node's linear output: each product is the sum over the input features, the transposed
    weight read back at `(q, k)`, the bias at column `q`. -/
theorem linBlk1_apply (v0 v2 : FVec Ideal S5000x130 .f32) (v3 v10 : FVec Ideal S128x130 .f32) (v6 : FVec Ideal S1x128 .f32)
    (p : Fin 5000) (q : Fin 128) :
    linBlk1 v0 v2 v3 v10 v6 (ix2 p q)
      = sageLin (fun k => v0 (ix2 p k)) (fun k => v2 (ix2 p k)) v3 v10 (fun j => v6 (ix2 (0 : Fin 1) j)) q := by
  unfold linBlk1 sageLin
  rw [addf_apply, addf_apply,
    PlainDot.matmul_zero_apply dot_S5000x130_S130x128_S5000x128_1_0_0_1_n_n rfl,
    PlainDot.matmul_zero_apply dot_S5000x130_S130x128_S5000x128_1_0_0_1_n_n rfl,
    broadcastTo_1b_ab_apply, shapeCast_self, shapeCast_self]
  have ht : ∀ (w : FVec Ideal S128x130 .f32) (k : Fin 130),
      transpose S130x128 [1, 0] w transposes_S128x130_p1_0_S130x128 (ix2 k q) = w (ix2 q k) :=
    fun w k => transpose_ix2_apply w _ k q
  simp only [ht]

/-- The sum over the 128 lanes of each row. -/
def laneSum (y : FVec Ideal S5000x128 .f32) : FVec Ideal S5000 .f32 :=
  multiReduction .add [1] S5000 y 0x00000000#32 reduces_S5000x128_S5000 (.inl rfl) rfl

/-- At row `p` it is the sum of the row's 128 entries. -/
theorem laneSum_apply (y : FVec Ideal S5000x128 .f32) (p : Fin 5000) :
    laneSum y (ix1 p) = ∑ j : Fin 128, y (ix2 p j) :=
  (Ideal.multiReduction_add_single y 0x00000000#32 reduces_S5000x128_S5000 (.inl rfl) rfl (ix1 p)).trans
    (Finset.sum_congr rfl fun k _ => congrArg y (lift_row p k))

/-- The mean over the 128 lanes, kept as a column: the lane reduction, the cast to a column, the division by `128.0`. -/
def meanCol (y : FVec Ideal S5000x128 .f32) : FVec Ideal S5000x1 .f32 :=
  divf (shapeCast S5000x1 (laneSum y) shapeCasts_S5000_S5000x1)
    (broadcast S5000x1 (Scalar.ofBits .f32 0x43000000#32))

/-- Row `p` of the column is the mean of row `p`. -/
theorem meanCol_apply (y : FVec Ideal S5000x128 .f32) (p : Fin 5000) :
    meanCol y (ix2 p (0 : Fin 1)) = laneMean (fun j => y (ix2 p j)) := by
  unfold meanCol laneMean
  rw [divf_apply, shapeCast_a_a1_apply, laneSum_apply, broadcast_apply]
  rfl

/-- The normalisation and the rectifier of the first body as one vector expression of the linear output `y` and the
    two `[1, 128]` rows. -/
def normBlk (y : FVec Ideal S5000x128 .f32) (g β : FVec Ideal S1x128 .f32) : FVec Ideal S5000x128 .f32 :=
  maximumf
    (addf
      (mulf
        (mulf (subf y (broadcastTo S5000x128 (meanCol y) broadcasts_S5000x1_S5000x128))
          (broadcastTo S5000x128
            (rsqrt (addf
              (meanCol (mulf (subf y (broadcastTo S5000x128 (meanCol y) broadcasts_S5000x1_S5000x128))
                (subf y (broadcastTo S5000x128 (meanCol y) broadcasts_S5000x1_S5000x128))))
              (broadcast S5000x1 (Scalar.ofBits .f32 0x3727C5AC#32))))
            broadcasts_S5000x1_S5000x128))
        (broadcastTo S5000x128 (shapeCast S1x128 g shapeCasts_S1x128_S1x128) broadcasts_S1x128_S5000x128))
      (broadcastTo S5000x128 (shapeCast S1x128 β shapeCasts_S1x128_S1x128) broadcasts_S1x128_S5000x128))
    (broadcast S5000x128 (Scalar.ofBits .f32 0x00000000#32))

theorem rsqrt_apply {s : Shape} (v : FVec Ideal s .f32) (i : s.Idx) : rsqrt v i = Ideal.rsqrt (v i) := rfl

/-- At `(p, q)` it is the normalised, rectified row of node `p` at `q`. -/
theorem normBlk_apply (y : FVec Ideal S5000x128 .f32) (g β : FVec Ideal S1x128 .f32) (p : Fin 5000) (q : Fin 128) :
    normBlk y g β (ix2 p q)
      = normRelu (fun j => y (ix2 p j)) (fun j => g (ix2 (0 : Fin 1) j)) (fun j => β (ix2 (0 : Fin 1) j)) q := by
  have hc : ∀ j : Fin 128, subf y (broadcastTo S5000x128 (meanCol y) broadcasts_S5000x1_S5000x128) (ix2 p j)
      = centred (fun j => y (ix2 p j)) j := fun j => by
    rw [subf_apply, broadcastTo_a1_ab_apply, meanCol_apply]; rfl
  unfold normBlk normRelu
  rw [maximumf_apply, addf_apply, mulf_apply, mulf_apply, hc, broadcastTo_a1_ab_apply, rsqrt_apply, addf_apply,
    meanCol_apply, broadcast_apply, broadcast_apply, broadcastTo_1b_ab_apply, broadcastTo_1b_ab_apply,
    shapeCast_self, shapeCast_self]
  simp only [mulf_apply, hc]
  rfl

/-- The first body's stored value is the normalisation of its linear part (the generated payloads, spelt out). -/
theorem pay1_eq (v0 v2 : FVec Ideal S5000x130 .f32) (v3 v10 : FVec Ideal S128x130 .f32) (v6 v32 v36 : FVec Ideal S1x128 .f32) :
    k0_pay1 (F := Ideal) (k0_pay2 v0 v2 v3 v6 v10 v32) (k0_pay3 v36) = normBlk (linBlk1 v0 v2 v3 v10 v6) v32 v36 := rfl

/-- The first body's stored value at `(p, q)`: the first layer's row function of node `p`'s rows. -/
theorem pay1_apply (v0 v2 : FVec Ideal S5000x130 .f32) (v3 v10 : FVec Ideal S128x130 .f32) (v6 v32 v36 : FVec Ideal S1x128 .f32)
    (p : Fin 5000) (q : Fin 128) :
    k0_pay1 (F := Ideal) (k0_pay2 v0 v2 v3 v6 v10 v32) (k0_pay3 v36) (ix2 p q)
      = layer1Row (fun k => v0 (ix2 p k)) (fun k => v2 (ix2 p k)) v3 v10 (fun j => v6 (ix2 (0 : Fin 1) j))
          (fun j => v32 (ix2 (0 : Fin 1) j)) (fun j => v36 (ix2 (0 : Fin 1) j)) q := by
  rw [pay1_eq, normBlk_apply]
  unfold layer1Row
  refine congrArg (fun y => normRelu y _ _ q) (funext fun j => ?_)
  exact linBlk1_apply v0 v2 v3 v10 v6 p j

/-! ## The second body -/

/-- The second body's stored value at `(p, q)`: the linear output over 128 input features. -/
theorem pay2_apply (v0 v9 : FVec Ideal S5000x128 .f32) (v2 v11 : FVec Ideal S128x128 .f32) (v5 : FVec Ideal S1x128 .f32)
    (p : Fin 5000) (q : Fin 128) :
    k1_pay1 (F := Ideal) v0 v2 v5 v9 v11 (ix2 p q)
      = layer2Row (fun k => v0 (ix2 p k)) (fun k => v9 (ix2 p k)) v2 v11 (fun j => v5 (ix2 (0 : Fin 1) j)) q := by
  unfold k1_pay1 layer2Row sageLin
  dsimp only
  rw [addf_apply, addf_apply,
    PlainDot.matmul_zero_apply dot_S5000x128_S128x128_S5000x128_1_0_0_1_n_n rfl,
    PlainDot.matmul_zero_apply dot_S5000x128_S128x128_S5000x128_1_0_0_1_n_n rfl,
    broadcastTo_1b_ab_apply, shapeCast_self, shapeCast_self, shapeCast_self]
  have ht : ∀ (w : FVec Ideal S128x128 .f32) (k : Fin 128),
      transpose S128x128 [1, 0] w transposes_S128x128_p1_0_S128x128 (ix2 k q) = w (ix2 q k) :=
    fun w k => transpose_ix2_apply w _ k q
  simp only [ht]

end Cert.Sage.Ker

end
-- ==== Proof.KerArrays.lean ====
/-
  From blocks to arrays: what each kernel region leaves in its output array.

  A region sweeps the 100000 nodes in 20 blocks of 5000. At point `t` the two row-blocked operands are fetched at rows
  `5000·t … 5000·t + 4999`, the small operands whole, and the output block is written back to the same rows. The body's
  value at `(p, q)` of the block depends only on row `p` of the row-blocked operands (`KerBody`), which is row
  `5000·t + p` of the arrays, so the written block is the restriction to those rows of ONE function of the whole arrays:
  `layer1Arr` (`layer2Arr`), the layer's row function applied to each node's own rows. The 20 blocks cover the output array
  (the point that covers row `r` is `r / 5000`), so after the region the array IS that function of the arrays the region was
  entered with. Stated for any entry contents `V`, as the frame's region halves are.
-/
import proofs.«155796_j54949811585355_1_alg».proof.Proof.Gen.KernelIdeal.Frame
import proofs.«155796_j54949811585355_1_alg».proof.Proof.KerBody
import Idealize.ShloMosaic.Lib.Pipeline.Value

set_option maxRecDepth 16384

noncomputable section

namespace Cert.Sage.KerArr

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage Cert.Sage.Ker

theorem hz : (![0, 0] : Fin 2 → Nat) = fun _ => 0 :=
  funext fun a => by match a with | ⟨0, _⟩ => rfl | ⟨1, _⟩ => rfl

/-- The node (row) and the output feature (column) of an index of a `[100000, 128]` array. -/
abbrev row (i : S100000x128.Idx) : Fin 100000 := ⟨(i 0).val, idx2_lt0 i⟩
abbrev col (i : S100000x128.Idx) : Fin 128 := ⟨(i 1).val, idx2_lt1 i⟩

/-- The first layer over whole arrays: at node `r`, the row function of row `r` of the means and of the features. -/
def layer1Arr (mean x : S100000x130.Idx → EReal) (Wl Wr : S128x130.Idx → EReal) (b g β : S1x128.Idx → EReal) :
    S100000x128.Idx → EReal :=
  fun i => layer1Row (fun k => mean (ix2 (row i) k)) (fun k => x (ix2 (row i) k)) Wl Wr
    (fun j => b (ix2 (0 : Fin 1) j)) (fun j => g (ix2 (0 : Fin 1) j)) (fun j => β (ix2 (0 : Fin 1) j)) (col i)

/-- The second layer over whole arrays. -/
def layer2Arr (mean h : S100000x128.Idx → EReal) (Wl Wr : S128x128.Idx → EReal) (b : S1x128.Idx → EReal) :
    S100000x128.Idx → EReal :=
  fun i => layer2Row (fun k => mean (ix2 (row i) k)) (fun k => h (ix2 (row i) k)) Wl Wr
    (fun j => b (ix2 (0 : Fin 1) j)) (col i)

theorem layer1Row_congr {mr mr' xr xr' : Fin 130 → EReal} {Wl Wl' Wr Wr' : (⟨2, ![128, 130]⟩ : Shape).Idx → EReal}
    {b b' g g' β β' : Fin 128 → EReal} {q q' : Fin 128} (h1 : mr = mr') (h2 : xr = xr') (h3 : Wl = Wl') (h4 : Wr = Wr')
    (h5 : b = b') (h6 : g = g') (h7 : β = β') (hq : q = q') :
    layer1Row mr xr Wl Wr b g β q = layer1Row mr' xr' Wl' Wr' b' g' β' q' := by
  subst h1 h2 h3 h4 h5 h6 h7 hq; rfl

theorem layer2Row_congr {mr mr' hr hr' : Fin 128 → EReal} {Wl Wl' Wr Wr' : (⟨2, ![128, 128]⟩ : Shape).Idx → EReal}
    {b b' : Fin 128 → EReal} {q q' : Fin 128} (h1 : mr = mr') (h2 : hr = hr') (h3 : Wl = Wl') (h4 : Wr = Wr')
    (h5 : b = b') (hq : q = q') :
    layer2Row mr hr Wl Wr b q = layer2Row mr' hr' Wl' Wr' b' q' := by
  subst h1 h2 h3 h4 h5 hq; rfl

variable (V : (c : Dev nD) → (b : Ref sig .tc) → Buf (Elt Ideal) ((c : Thread nD τ).loc b))

/-! ## Region 0: the first layer -/

/-- The printed index maps over the 20 points: the two row-blocked inputs move with the output block on the row axis, every
    other block index is zero, and the output's row-block index stays below 20. -/
theorem idx0 : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 ∧ win0_7.index t (0 : Fin 2) ≤ 19 :=
  (by decide +kernel : ∀ t : Fin grid0.N, _)

/-- Every row block is some point's. -/
theorem onto0 : ∀ q0 : Fin 20, ∃ t : Fin cfg0.N, win0_7.index t = ![q0.val, 0] :=
  (by decide +kernel : ∀ q0 : Fin 20, ∃ t : Fin grid0.N, win0_7.index t = ![q0.val, 0])

/-- What point `t` writes back is block `t` of the first layer of the arrays the region was entered with. -/
theorem flushed0 (c : Dev nD) (t : Fin cfg0.N) :
    (dat0 V c).flushed 7 t = ((cfg0.win 7).blk t).view.read (Elt Ideal)
      (layer1Arr (V c main_v22) (V c main_arg0) (V c main_arg2) (V c main_arg4) (V c main_v23) (V c main_v24) (V c main_v25)) := by
  show (cfg0.win 7).cut (grid0.coords t) ((dat0 V c).after 7 t) = _
  rw [after0_7]
  unfold out0_7
  rw [View.canon_unit_zero hz]
  simp only [View.ld_unit_zero (S := S5000x130) hz, View.ld_unit_zero (S := S128x130) hz, View.ld_unit_zero (S := S1x128) hz]
  obtain ⟨e00, e01, e10, e11, e20, e21, e30, e31, e40, e41, e50, e51, e60, e61, e71, e70⟩ := idx0 t
  funext j
  obtain ⟨p, q, rfl⟩ : ∃ (p : Fin 5000) (q : Fin 128), j = ix2 p q := ⟨j 0, j 1, eq_ix2 j⟩
  refine (pay1_apply (iblk0 V c 0 t) (iblk0 V c 1 t) (iblk0 V c 2 t) (iblk0 V c 4 t) (iblk0 V c 3 t) (iblk0 V c 5 t)
    (iblk0 V c 6 t) p q).trans ?_
  show _ = layer1Arr (V c main_v22) (V c main_arg0) (V c main_arg2) (V c main_arg4) (V c main_v23) (V c main_v24) (V c main_v25)
    (((cfg0.win 7).blk t).view.emb (ix2 p q))
  unfold layer1Arr
  refine layer1Row_congr ?_ ?_ ?_ ?_ ?_ ?_ ?_ ?_
  · funext k
    show V c main_v22 (((cfg0.win 0).blk t).view.emb (ix2 p k)) = V c main_v22 (ix2 (row (((cfg0.win 7).blk t).view.emb (ix2 p q))) k)
    refine congrArg (V c main_v22) (funext fun a => Fin.ext ?_)
    match a with
    | ⟨0, _⟩ => show win0_0.index t (0 : Fin 2) * 5000 + 1 * p.val = win0_7.index t (0 : Fin 2) * 5000 + 1 * p.val; omega
    | ⟨1, _⟩ => show win0_0.index t (1 : Fin 2) * 130 + 1 * k.val = k.val; omega
  · funext k
    show V c main_arg0 (((cfg0.win 1).blk t).view.emb (ix2 p k)) = V c main_arg0 (ix2 (row (((cfg0.win 7).blk t).view.emb (ix2 p q))) k)
    refine congrArg (V c main_arg0) (funext fun a => Fin.ext ?_)
    match a with
    | ⟨0, _⟩ => show win0_1.index t (0 : Fin 2) * 5000 + 1 * p.val = win0_7.index t (0 : Fin 2) * 5000 + 1 * p.val; omega
    | ⟨1, _⟩ => show win0_1.index t (1 : Fin 2) * 130 + 1 * k.val = k.val; omega
  · funext y
    show V c main_arg2 (((cfg0.win 2).blk t).view.emb y) = V c main_arg2 y
    refine congrArg (V c main_arg2) (funext fun a => Fin.ext ?_)
    match a with
    | ⟨0, _⟩ => show win0_2.index t (0 : Fin 2) * 128 + 1 * (y 0).val = (y 0).val; omega
    | ⟨1, _⟩ => show win0_2.index t (1 : Fin 2) * 130 + 1 * (y 1).val = (y 1).val; omega
  · funext y
    show V c main_arg4 (((cfg0.win 4).blk t).view.emb y) = V c main_arg4 y
    refine congrArg (V c main_arg4) (funext fun a => Fin.ext ?_)
    match a with
    | ⟨0, _⟩ => show win0_4.index t (0 : Fin 2) * 128 + 1 * (y 0).val = (y 0).val; omega
    | ⟨1, _⟩ => show win0_4.index t (1 : Fin 2) * 130 + 1 * (y 1).val = (y 1).val; omega
  · funext j
    show V c main_v23 (((cfg0.win 3).blk t).view.emb (ix2 (0 : Fin 1) j)) = V c main_v23 (ix2 (0 : Fin 1) j)
    refine congrArg (V c main_v23) (funext fun a => Fin.ext ?_)
    match a with
    | ⟨0, _⟩ => show win0_3.index t (0 : Fin 2) * 1 + 1 * 0 = 0; omega
    | ⟨1, _⟩ => show win0_3.index t (1 : Fin 2) * 128 + 1 * j.val = j.val; omega
  · funext j
    show V c main_v24 (((cfg0.win 5).blk t).view.emb (ix2 (0 : Fin 1) j)) = V c main_v24 (ix2 (0 : Fin 1) j)
    refine congrArg (V c main_v24) (funext fun a => Fin.ext ?_)
    match a with
    | ⟨0, _⟩ => show win0_5.index t (0 : Fin 2) * 1 + 1 * 0 = 0; omega
    | ⟨1, _⟩ => show win0_5.index t (1 : Fin 2) * 128 + 1 * j.val = j.val; omega
  · funext j
    show V c main_v25 (((cfg0.win 6).blk t).view.emb (ix2 (0 : Fin 1) j)) = V c main_v25 (ix2 (0 : Fin 1) j)
    refine congrArg (V c main_v25) (funext fun a => Fin.ext ?_)
    match a with
    | ⟨0, _⟩ => show win0_6.index t (0 : Fin 2) * 1 + 1 * 0 = 0; omega
    | ⟨1, _⟩ => show win0_6.index t (1 : Fin 2) * 128 + 1 * j.val = j.val; omega
  · refine Fin.ext ?_
    show q.val = win0_7.index t (1 : Fin 2) * 128 + 1 * q.val
    omega

/-- An index of the output array is in point `t`'s block iff each coordinate is in the block's range on its axis. -/
theorem mem_blk0 (t : Fin cfg0.N) (i : S100000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v26).slice (win0_7.rect t)).set ↔ _
  rw [View.set_slice_whole, Rect.mem_set_unit]
  exact Iff.rfl

/-- The 20 row blocks cover the output array: node `r` lies in the block of point `r / 5000`. -/
theorem cover0 (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  obtain ⟨t, ht⟩ := onto0 ⟨(i 0).val / 5000, by omega⟩
  have q0 : win0_7.index t (0 : Fin 2) = (i 0).val / 5000 := congrFun ht 0
  have q1 : win0_7.index t (1 : Fin 2) = 0 := congrFun ht 1
  refine ⟨t, flush0_7 t, ?_⟩
  rw [mem_blk0]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-- After region 0 its output array is the first layer of the arrays the region was entered with. -/
theorem arr0 (c : Dev nD) :
    (dat0 V c).arrAt 7 cfg0.N
      = layer1Arr (V c main_v22) (V c main_arg0) (V c main_arg2) (V c main_arg4) (V c main_v23) (V c main_v24) (V c main_v25) :=
  (dat0 V c).arrAt_eq_of_cover 7 _ (fun t _ => flushed0 V c t) cover0

/-! ## Region 1: the second layer -/

theorem idx1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 19 :=
  (by decide +kernel : ∀ t : Fin grid1.N, _)

theorem onto1 : ∀ q0 : Fin 20, ∃ t : Fin cfg1.N, win1_5.index t = ![q0.val, 0] :=
  (by decide +kernel : ∀ q0 : Fin 20, ∃ t : Fin grid1.N, win1_5.index t = ![q0.val, 0])

/-- What point `t` writes back is block `t` of the second layer of the arrays the region was entered with. -/
theorem flushed1 (c : Dev nD) (t : Fin cfg1.N) :
    (dat1 V c).flushed 5 t = ((cfg1.win 5).blk t).view.read (Elt Ideal)
      (layer2Arr (V c main_v45) (V c main_v26) (V c main_arg7) (V c main_arg9) (V c main_v46)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e51, e50⟩ := idx1 t
  funext j
  obtain ⟨p, q, rfl⟩ : ∃ (p : Fin 5000) (q : Fin 128), j = ix2 p q := ⟨j 0, j 1, eq_ix2 j⟩
  refine (pay2_apply (iblk1 V c 0 t) (iblk1 V c 1 t) (iblk1 V c 2 t) (iblk1 V c 4 t) (iblk1 V c 3 t) p q).trans ?_
  show _ = layer2Arr (V c main_v45) (V c main_v26) (V c main_arg7) (V c main_arg9) (V c main_v46)
    (((cfg1.win 5).blk t).view.emb (ix2 p q))
  unfold layer2Arr
  refine layer2Row_congr ?_ ?_ ?_ ?_ ?_ ?_
  · funext k
    show V c main_v45 (((cfg1.win 0).blk t).view.emb (ix2 p k)) = V c main_v45 (ix2 (row (((cfg1.win 5).blk t).view.emb (ix2 p q))) k)
    refine congrArg (V c main_v45) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  · funext k
    show V c main_v26 (((cfg1.win 1).blk t).view.emb (ix2 p k)) = V c main_v26 (ix2 (row (((cfg1.win 5).blk t).view.emb (ix2 p q))) k)
    refine congrArg (V c main_v26) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  · funext y
    show V c main_arg7 (((cfg1.win 2).blk t).view.emb y) = V c main_arg7 y
    refine congrArg (V c main_arg7) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_arg9 (((cfg1.win 4).blk t).view.emb y) = V c main_arg9 y
    refine congrArg (V c main_arg9) (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  · funext j
    show V c main_v46 (((cfg1.win 3).blk t).view.emb (ix2 (0 : Fin 1) j)) = V c main_v46 (ix2 (0 : Fin 1) j)
    refine congrArg (V c main_v46) (funext fun a => Fin.ext ?_)
    match a with
    | ⟨0, _⟩ => show win1_3.index t (0 : Fin 2) * 1 + 1 * 0 = 0; omega
    | ⟨1, _⟩ => show win1_3.index t (1 : Fin 2) * 128 + 1 * j.val = j.val; omega
  · refine Fin.ext ?_
    show q.val = win1_5.index t (1 : Fin 2) * 128 + 1 * q.val
    omega

theorem mem_blk1 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v47).slice (win1_5.rect t)).set ↔ _
  rw [View.set_slice_whole, Rect.mem_set_unit]
  exact Iff.rfl

theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- After region 1 its output array is the second layer of the arrays the region was entered with. -/
theorem arr1 (c : Dev nD) :
    (dat1 V c).arrAt 5 cfg1.N
      = layer2Arr (V c main_v45) (V c main_v26) (V c main_arg7) (V c main_arg9) (V c main_v46) :=
  (dat1 V c).arrAt_eq_of_cover 5 _ (fun t _ => flushed1 V c t) cover1

end Cert.Sage.KerArr

end
-- ==== Proof.RefLayers.lean ====
/-
  What the reference's dense stages compute, entry by entry.

  The reference computes each layer over the whole `[100000, ·]` arrays with host operations. Read at node `r` and output
  feature `q`, the stages between the aggregated means and the layer's output depend only on row `r` of the means and of
  the features: the two `dot_general`s are sums over the input features (the transposed weight read back at `(q, k)`), the
  two sums over the 128 features are sums over row `r`, the keep-dims broadcasts hand the row's own mean and variance back,
  and the rest is pointwise. So each layer's output at `(r, q)` is the row function of `RowSpec` of node `r`'s rows — the
  same function the kernel bodies compute. The aggregated means themselves (the gather, the two scatter-adds, the division by
  the clamped degree) stay the stage functions they are; nothing here opens them.

  The host's sum carries its initial value, the zero word, in front; that is the one place a law is used (`0 + s = s`).
-/
import proofs.«155796_j54949811585355_1_alg».proof.Proof.Gen.ReferenceIdeal.Read
import proofs.«155796_j54949811585355_1_alg».proof.Proof.RowSpec

noncomputable section

namespace Cert.Sage.Ref

open Idealize.ShloMosaic Idealize.ShloMosaic.ValueIdx Cert.ReferenceIdeal Cert.ReferenceIdeal.Read Cert.Sage

/-- Two indices of a rank-2 shape with the same coordinates are one index. -/
theorem idx2_ext {n0 n1 : ℕ} {i j : (⟨2, ![n0, n1]⟩ : Shape).Idx} (h0 : (i 0).val = (j 0).val) (h1 : (i 1).val = (j 1).val) :
    i = j :=
  funext fun a => Fin.ext (by match a with | ⟨0, _⟩ => exact h0 | ⟨1, _⟩ => exact h1)

/-- The same at rank 1. -/
theorem idx1_ext {n : ℕ} {i j : (⟨1, ![n]⟩ : Shape).Idx} (h0 : (i 0).val = (j 0).val) : i = j :=
  funext fun a => Fin.ext (by match a with | ⟨0, _⟩ => exact h0)

variable (x0 : (⟨S100000x130, .f32⟩ : BufTy).Contents (Elt Ideal)) (x1 : (⟨S2x1600000, .i32⟩ : BufTy).Contents (Elt Ideal))
  (x2 : (⟨S128x130, .f32⟩ : BufTy).Contents (Elt Ideal)) (x3 : (⟨S128, .f32⟩ : BufTy).Contents (Elt Ideal))
  (x4 : (⟨S128x130, .f32⟩ : BufTy).Contents (Elt Ideal)) (x5 x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S128x128, .f32⟩ : BufTy).Contents (Elt Ideal))

/-! ## The first layer -/

/-- The linear output of the first layer at node `r`, as a row. -/
abbrev linRow (r : Fin 100000) : Fin 128 → EReal := fun j => val_main_v30 (F := Ideal) x0 x1 x2 x3 x4 (ix2 r j)

/-- It is the node's linear map of row `r` of the aggregated means and row `r` of the features. -/
theorem lin_apply (r : Fin 100000) (j : Fin 128) :
    val_main_v30 (F := Ideal) x0 x1 x2 x3 x4 (ix2 r j)
      = sageLin (fun k => val_main_v22 (F := Ideal) x0 x1 (ix2 r k)) (fun k => x0 (ix2 r k)) x2 x4 (fun q => x3 (ix1 q)) j := by
  rw [val_main_v30_apply, val_main_v27_apply, val_main_v24_apply, val_main_v29_apply, val_main_v26_apply, val_main_v25_apply]
  unfold sageLin
  refine congrArg₂ (· + ·) (congrArg₂ (· + ·) (Finset.sum_congr rfl fun k _ => ?_) ?_) (Finset.sum_congr rfl fun k _ => ?_)
  · rw [val_main_v23_apply]
    exact congrArg₂ (· * ·) (congrArg (val_main_v22 (F := Ideal) x0 x1) (idx2_ext rfl rfl)) (congrArg x2 (idx2_ext rfl rfl))
  · exact congrArg x3 (idx1_ext rfl)
  · rw [val_main_v28_apply]
    exact congrArg₂ (· * ·) (congrArg x0 (idx2_ext rfl rfl)) (congrArg x4 (idx2_ext rfl rfl))

/-- The keep-dims mean column at node `r` is the mean of the node's linear row. -/
theorem mean_apply (r : Fin 100000) (u : S100000x1.Idx) (hu : (u 0).val = r.val) :
    val_main_v34 (F := Ideal) x0 x1 x2 x3 x4 u = laneMean (linRow x0 x1 x2 x3 x4 r) := by
  rw [val_main_v34_apply, val_main_v32_apply, val_main_v31_apply, val_main_v33_apply, val_main_cst_4_apply, val_main_cst_5_apply]
  simp only [Ideal.hostDivf_def, Ideal.ofBits_def, Ideal.ofBits_zero_f32, zero_add]
  unfold laneMean
  exact congrArg₂ Ideal.div (Finset.sum_congr rfl fun k _ =>
    congrArg (val_main_v30 (F := Ideal) x0 x1 x2 x3 x4) (idx2_ext hu rfl)) rfl

/-- The linear output with its row mean taken off, at any index of node `r` and feature `q` (the first of the two
    subtractions the reference prints). -/
theorem centred36_apply (r : Fin 100000) (q : Fin 128) (i : S100000x128.Idx) (h0 : (i 0).val = r.val) (h1 : (i 1).val = q.val) :
    val_main_v36 (F := Ideal) x0 x1 x2 x3 x4 i = centred (linRow x0 x1 x2 x3 x4 r) q := by
  rw [val_main_v36_apply, val_main_v35_apply]
  exact congrArg₂ (· - ·) (congrArg (val_main_v30 (F := Ideal) x0 x1 x2 x3 x4) (idx2_ext h0 h1))
    (mean_apply x0 x1 x2 x3 x4 r _ h0)

/-- The second of the two subtractions: the same value. -/
theorem centred43_apply (r : Fin 100000) (q : Fin 128) (i : S100000x128.Idx) (h0 : (i 0).val = r.val) (h1 : (i 1).val = q.val) :
    val_main_v43 (F := Ideal) x0 x1 x2 x3 x4 i = centred (linRow x0 x1 x2 x3 x4 r) q := by
  rw [val_main_v43_apply, val_main_v42_apply]
  exact congrArg₂ (· - ·) (congrArg (val_main_v30 (F := Ideal) x0 x1 x2 x3 x4) (idx2_ext h0 h1))
    (mean_apply x0 x1 x2 x3 x4 r _ h0)

/-- The keep-dims variance column at node `r` is the mean of the squares of the node's centred row. -/
theorem var_apply (r : Fin 100000) (u : S100000x1.Idx) (hu : (u 0).val = r.val) :
    val_main_v41 (F := Ideal) x0 x1 x2 x3 x4 u
      = laneMean (fun j => centred (linRow x0 x1 x2 x3 x4 r) j * centred (linRow x0 x1 x2 x3 x4 r) j) := by
  rw [val_main_v41_apply, val_main_v39_apply, val_main_v38_apply, val_main_v40_apply, val_main_cst_6_apply, val_main_cst_7_apply]
  simp only [Ideal.hostDivf_def, Ideal.ofBits_def, Ideal.ofBits_zero_f32, zero_add]
  unfold laneMean
  refine congrArg₂ Ideal.div (Finset.sum_congr rfl fun k _ => ?_) rfl
  rw [val_main_v37_apply]
  exact congrArg₂ (· * ·) (centred36_apply x0 x1 x2 x3 x4 r k _ hu rfl) (centred36_apply x0 x1 x2 x3 x4 r k _ hu rfl)

/-- The first layer's output (after the rectifier) at `(r, q)`: the first layer's row function of node `r`'s rows. -/
theorem h_apply (r : Fin 100000) (q : Fin 128) :
    val_main_v55 (F := Ideal) x0 x1 x2 x3 x4 x5 x6 (ix2 r q)
      = layer1Row (fun k => val_main_v22 (F := Ideal) x0 x1 (ix2 r k)) (fun k => x0 (ix2 r k)) x2 x4
          (fun j => x3 (ix1 j)) (fun j => x5 (ix1 j)) (fun j => x6 (ix1 j)) q := by
  rw [val_main_v55_apply, val_main_v54_apply, val_main_v51_apply, val_main_v48_apply, val_main_v47_apply, val_main_v46_apply,
    val_main_v45_apply, val_main_v44_apply, val_main_cst_8_apply, val_main_v50_apply, val_main_v49_apply, val_main_v53_apply,
    val_main_v52_apply, val_main_call0_v0_apply, val_main_call0_cst_apply]
  simp only [Ideal.maximumf_def, Ideal.addf_def, Ideal.mulf_def, Ideal.hostUnary_rsqrt_def, Ideal.ofBits_def]
  have hy : linRow x0 x1 x2 x3 x4 r
      = sageLin (fun k => val_main_v22 (F := Ideal) x0 x1 (ix2 r k)) (fun k => x0 (ix2 r k)) x2 x4 (fun q => x3 (ix1 q)) :=
    funext fun j => lin_apply x0 x1 x2 x3 x4 r j
  unfold layer1Row normRelu
  rw [← hy]
  exact congrArg₂ max
    (congrArg₂ (· + ·)
      (congrArg₂ (· * ·)
        (congrArg₂ (· * ·) (centred43_apply x0 x1 x2 x3 x4 r q _ rfl rfl)
          (congrArg Ideal.rsqrt (congrArg₂ (· + ·) (var_apply x0 x1 x2 x3 x4 r _ rfl) rfl)))
        (congrArg x5 (idx1_ext rfl)))
      (congrArg x6 (idx1_ext rfl)))
    rfl

/-! ## The second layer -/

/-- The reference's result at `(r, q)`: the second layer's row function of row `r` of the second aggregated means and row `r`
    of the first layer's output. -/
theorem out_apply (r : Fin 100000) (q : Fin 128) :
    val_main_v82 (F := Ideal) x0 x1 x2 x3 x4 x5 x6 x7 x8 x9 (ix2 r q)
      = layer2Row (fun k => val_main_v74 (F := Ideal) x0 x1 x2 x3 x4 x5 x6 (ix2 r k))
          (fun k => val_main_v55 (F := Ideal) x0 x1 x2 x3 x4 x5 x6 (ix2 r k)) x7 x9 (fun j => x8 (ix1 j)) q := by
  rw [val_main_v82_apply, val_main_v79_apply, val_main_v76_apply, val_main_v81_apply, val_main_v78_apply, val_main_v77_apply]
  unfold layer2Row sageLin
  refine congrArg₂ (· + ·) (congrArg₂ (· + ·) (Finset.sum_congr rfl fun k _ => ?_) ?_) (Finset.sum_congr rfl fun k _ => ?_)
  · rw [val_main_v75_apply]
    exact congrArg₂ (· * ·) (congrArg (val_main_v74 (F := Ideal) x0 x1 x2 x3 x4 x5 x6) (idx2_ext rfl rfl))
      (congrArg x7 (idx2_ext rfl rfl))
  · exact congrArg x8 (idx1_ext rfl)
  · rw [val_main_v80_apply]
    exact congrArg₂ (· * ·) (congrArg (val_main_v55 (F := Ideal) x0 x1 x2 x3 x4 x5 x6) (idx2_ext rfl rfl))
      (congrArg x9 (idx2_ext rfl rfl))

end Cert.Sage.Ref

end
-- ==== Proof.Bridge.lean ====
/-
  The kernel's program against the reference's stages.

  The kernel's @main is four segments: a stretch of host operations (the first aggregation and three reshapes), the first
  region, a second stretch (the second aggregation and a reshape), the second region. The generated frame names the buffer
  contents at each boundary as a fold from the launch memory. Here each buffer the dense layers read is identified, at the
  ideal values, with the stage of the REFERENCE that computes the same thing from the same argument arrays:

  * the first aggregated means are the reference's stage for them — the two programs apply the same host operations (slice,
    index wrap, gather, two scatter-adds, the clamp of the degree, the division) to the same arguments, so the two terms are
    one term; the aggregation is never opened;
  * the first region's output array is the first layer of its entry arrays (`KerArrays`), and the reference's rectified
    stage is the same row function of the same rows (`RefLayers`): equal, node by node;
  * the second aggregated means are again the same host operations, now applied to equal arrays;
  * the second region's output array is the second layer, and so is the reference's result.
-/
import proofs.«155796_j54949811585355_1_alg».proof.Proof.KerArrays
import proofs.«155796_j54949811585355_1_alg».proof.Proof.RefLayers
import Idealize.ShloMosaic.Lib.StableHlo.Run

set_option maxRecDepth 16384

noncomputable section

namespace Cert.Sage.Bridge

open Idealize.ShloMosaic Idealize.ShloMosaic.TcCoe Idealize.ShloMosaic.ValueIdx Idealize.SL.Sem Idealize.ShloMosaic.StableHlo
open Cert.KernelIdeal Cert.KernelIdeal.Gen Cert.ReferenceIdeal.Read Cert.Sage Cert.Sage.KerArr

variable (m : (ℓ : Loc nD τ sig) → Buf (Elt Ideal) ℓ) (ρ : Dev nD → PrngReg)

/-! ## Buffers the host stretches leave alone -/

/-- At the first region's entry a buffer no operation of the first stretch writes holds its launch contents. -/
theorem V1_kept (c : Dev nD) (b : Ref sig .tc)
    (h : ∀ op ∈ (hostOps0 : List (HloOp τ sig (Elt Ideal))), (Proc.devRef .tc b : DevRef τ sig) ∉ op.writes) :
    V1 m ρ c b = m ((c : Thread nD τ).loc b) :=
  StableHlo.after_of_forall_not_mem (b := Proc.devRef .tc b) _ _ h

/-- At the second region's entry a buffer that is no array of the first region and that neither stretch writes holds its
    launch contents. -/
theorem V3_kept (c : Dev nD) (b : Ref sig .tc) (hb : ∀ w, Pipeline.arrRef spec0 w ≠ b)
    (h1 : ∀ op ∈ (hostOps1 : List (HloOp τ sig (Elt Ideal))), (Proc.devRef .tc b : DevRef τ sig) ∉ op.writes)
    (h0 : ∀ op ∈ (hostOps0 : List (HloOp τ sig (Elt Ideal))), (Proc.devRef .tc b : DevRef τ sig) ∉ op.writes) :
    V3 m ρ c b = m ((c : Thread nD τ).loc b) :=
  (StableHlo.after_of_forall_not_mem (b := Proc.devRef .tc b) _ _ h1).trans
    ((W2_of_ne m ρ c b hb).trans (StableHlo.after_of_forall_not_mem (b := Proc.devRef .tc b) _ _ h0))

/-! ## The first aggregation and the first layer -/

set_option maxHeartbeats 8000000 in
/-- The first region's mean operand is the reference's stage for the aggregated means: the same host operations of the same
    two arguments. -/
theorem mean1_eq (c : Dev nD) :
    V1 m ρ c main_v22 = val_main_v22 (F := Ideal) (m ((c : Thread nD τ).loc main_arg0)) (m ((c : Thread nD τ).loc main_arg1)) := by
  show StableHlo.after hostOps0 (W0 m ρ c) (Proc.devRef .tc main_v22) = _
  after_results_simp
  rfl

/-- A `[128]` argument reshaped to the row `[1, 128]` the region stages. -/
theorem row23_eq (c : Dev nD) :
    V1 m ρ c main_v23 = shapeCast S1x128 (m ((c : Thread nD τ).loc main_arg3)) shapeCasts_S128_S1x128 := by
  show StableHlo.after hostOps0 (W0 m ρ c) (Proc.devRef .tc main_v23) = _
  after_results
  rfl
theorem row24_eq (c : Dev nD) :
    V1 m ρ c main_v24 = shapeCast S1x128 (m ((c : Thread nD τ).loc main_arg5)) shapeCasts_S128_S1x128 := by
  show StableHlo.after hostOps0 (W0 m ρ c) (Proc.devRef .tc main_v24) = _
  after_results
  rfl
theorem row25_eq (c : Dev nD) :
    V1 m ρ c main_v25 = shapeCast S1x128 (m ((c : Thread nD τ).loc main_arg6)) shapeCasts_S128_S1x128 := by
  show StableHlo.after hostOps0 (W0 m ρ c) (Proc.devRef .tc main_v25) = _
  after_results
  rfl

/-- After the first region its output array is the reference's rectified first-layer stage of the arguments. -/
theorem h_eq (c : Dev nD) :
    (W2 m ρ c (Proc.devRef .tc main_v26) : S100000x128.Idx → EReal)
      = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W2_arr m ρ c 7).trans (arr0 (V1 m ρ) c)).trans ?_
  funext i
  obtain ⟨r, q, rfl⟩ : ∃ (r : Fin 100000) (q : Fin 128), i = ix2 r q := ⟨i 0, i 1, eq_ix2 i⟩
  rw [Ref.h_apply]
  unfold layer1Arr
  refine layer1Row_congr ?_ ?_ ?_ ?_ ?_ ?_ ?_ rfl
  · funext k; rw [mean1_eq]
  · funext k
    rw [V1_kept m ρ c main_arg0 (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  · exact V1_kept m ρ c main_arg2 (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  · exact V1_kept m ρ c main_arg4 (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  · funext j; rw [row23_eq]; exact shapeCast_a_1a_apply _ _ 0 j
  · funext j; rw [row24_eq]; exact shapeCast_a_1a_apply _ _ 0 j
  · funext j; rw [row25_eq]; exact shapeCast_a_1a_apply _ _ 0 j

/-! ## The second aggregation and the second layer -/

/-- The second stretch does not write the first region's output. -/
theorem V3_h_eq (c : Dev nD) :
    (V3 m ρ c main_v26 : S100000x128.Idx → EReal) = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (StableHlo.after_of_forall_not_mem (b := Proc.devRef .tc main_v26) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (h_eq m ρ c)

set_option maxHeartbeats 8000000 in
/-- The second region's mean operand is the reference's stage for the second aggregated means: the same host operations,
    of the edge list and of the first layer's output. -/
theorem mean2_eq (c : Dev nD) :
    V3 m ρ c main_v45 = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h1 : W2 m ρ c (Proc.devRef .tc main_v1) = val_main_v1 (F := Ideal) (m ((c : Thread nD τ).loc main_arg1)) :=
    (W2_of_ne m ρ c main_v1 (by decide)).trans (by
      show StableHlo.after hostOps0 (W0 m ρ c) (Proc.devRef .tc main_v1) = _
      after_results
      rfl)
  have h3 : W2 m ρ c (Proc.devRef .tc main_v3) = val_main_v3 (F := Ideal) (m ((c : Thread nD τ).loc main_arg1)) :=
    (W2_of_ne m ρ c main_v3 (by decide)).trans (by
      show StableHlo.after hostOps0 (W0 m ρ c) (Proc.devRef .tc main_v3) = _
      after_results
      rfl)
  show StableHlo.after hostOps1 (W2 m ρ c) (Proc.devRef .tc main_v45) = _
  after_results_simp
  rw [h1, h3, h_eq]
  rfl

/-- The `[128]` bias of the second layer reshaped to a row. -/
theorem row46_eq (c : Dev nD) :
    V3 m ρ c main_v46 = shapeCast S1x128 (W2 m ρ c (Proc.devRef .tc main_arg8)) shapeCasts_S128_S1x128 := by
  show StableHlo.after hostOps1 (W2 m ρ c) (Proc.devRef .tc main_v46) = _
  after_results
  rfl

theorem W2_arg8 (c : Dev nD) : W2 m ρ c (Proc.devRef .tc main_arg8) = (m ((c : Thread nD τ).loc main_arg8)) :=
  (W2_of_ne m ρ c main_arg8 (by decide)).trans
    (StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- THE KERNEL'S RESULT: at the last boundary the result array is the reference's result stage of the argument arrays. -/
theorem out_eq (c : Dev nD) :
    (W4 m ρ c (Proc.devRef .tc main_v47) : S100000x128.Idx → EReal)
      = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine ((W4_arr m ρ c 5).trans (arr1 (V3 m ρ) c)).trans ?_
  funext i
  obtain ⟨r, q, rfl⟩ : ∃ (r : Fin 100000) (q : Fin 128), i = ix2 r q := ⟨i 0, i 1, eq_ix2 i⟩
  rw [Ref.out_apply]
  unfold layer2Arr
  refine layer2Row_congr ?_ ?_ ?_ ?_ ?_ rfl
  · funext k; rw [mean2_eq]
  · funext k; rw [V3_h_eq]
  · exact V3_kept m ρ c main_arg7 (by decide) (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  · exact V3_kept m ρ c main_arg9 (by decide) (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  · funext j; rw [row46_eq, W2_arg8]; exact shapeCast_a_1a_apply _ _ 0 j

end Cert.Sage.Bridge

end
-- ==== Proof.lean ====
/-
  Two GraphSAGE layers with a layer normalisation and a rectifier between them, over 100000 nodes and 1600000 edges:
  the kernel against its reference, over the extended reals.

  Both programs aggregate on the host — gather the source rows, scatter-add them at the destinations, count the degrees the
  same way, divide by the degree clamped below at one — and both do it with the same operations of the same arguments.
  The kernel then runs each layer's dense part, `mean · W_lᵀ + b + h · W_rᵀ` (followed in the first layer by the
  normalisation over the 128 features and the maximum with zero), in a region that sweeps the nodes in 20 blocks of 5000;
  the reference runs it as host operations over the whole arrays.

  At the ideal values the two dense parts are one function of each node's own rows: a product into a zero accumulator and
  a `dot_general` are the same sum over the input features, a lane reduction and a host sum the same sum over the 128
  features (the host's carries the zero it starts from in front), the division, the reciprocal square root and the maximum
  are the same total operations, the one literal epsilon is the same word on both sides, and both group the three summands
  the same way. No distributive law or cancellation is needed, so the finiteness of the inputs is never used.

  So the kernel's result array is the reference's own result term evaluated at the kernel's arguments: the blocks each region
  writes are restrictions of one whole-array function and cover the array; the aggregations, being the same term on both
  sides, are carried along unopened. The three frames are the generated frame runs (the reference's with its result
  dropped); the idealisation rewrote nothing, so `preserves` is `True`.
-/
import proofs.«155796_j54949811585355_1_alg».proof.Defs
import proofs.«155796_j54949811585355_1_alg».proof.Proof.Gen.Kernel
import proofs.«155796_j54949811585355_1_alg».proof.Proof.Gen.Kernel.Skeleton
import proofs.«155796_j54949811585355_1_alg».proof.Proof.Gen.Kernel.Launch
import proofs.«155796_j54949811585355_1_alg».proof.Proof.Gen.Kernel.Points
import proofs.«155796_j54949811585355_1_alg».proof.Proof.Gen.Kernel.Frame
import proofs.«155796_j54949811585355_1_alg».proof.Proof.Gen.KernelIdeal
import proofs.«155796_j54949811585355_1_alg».proof.Proof.Gen.KernelIdeal.Skeleton
import proofs.«155796_j54949811585355_1_alg».proof.Proof.Gen.KernelIdeal.Launch
import proofs.«155796_j54949811585355_1_alg».proof.Proof.Gen.KernelIdeal.Points
import proofs.«155796_j54949811585355_1_alg».proof.Proof.Gen.KernelIdeal.Frame
import proofs.«155796_j54949811585355_1_alg».proof.Proof.Gen.ReferenceIdeal
import proofs.«155796_j54949811585355_1_alg».proof.Proof.Gen.ReferenceIdeal.Run
import proofs.«155796_j54949811585355_1_alg».proof.Proof.Gen.ReferenceIdeal.Read
import proofs.«155796_j54949811585355_1_alg».proof.Proof.Gen.Pre_finite_inputs
import proofs.«155796_j54949811585355_1_alg».proof.Proof.KerRun
import proofs.«155796_j54949811585355_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame of its four segments. -/
theorem frame_kernel : Cert.frame_Kernel := fun m ρ _ => Cert.Kernel.Gen.frame m ρ

/-- The same for the idealised kernel. -/
theorem frame_kernelIdeal : Cert.frame_KernelIdeal := fun m ρ _ => Cert.KernelIdeal.Gen.frame m ρ

/-- The reference is host operations only: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Both programs end with the result array at the reference's result stage of the (agreeing) argument arrays. -/
theorem algebraic : Cert.algebraic_KernelIdeal_ReferenceIdeal := by
  intro m ρ m' ρ' _ hagree
  refine ⟨fun c => Cert.ReferenceIdeal.Read.val_main_v82 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    ?_, ?_⟩
  · exact (θ_run Cert.KernelIdeal.defs _ _).mono
      (fun r h c => ⟨(h c).1.trans (Cert.Sage.Bridge.out_eq m ρ c), (h c).2⟩)
      (Cert.KernelIdeal.Named.run_named m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v82_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
